-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S1000x64 : Shape := ⟨2, ![1000, 64]⟩
abbrev S_ : Shape := ⟨0, ![]⟩

class Facts : Prop where
  bcast_S_S1000x64 : S_.BroadcastsInDim S1000x64 (![] : Fin 0 → Fin S1000x64.rank)
  reducesTo_S1000x64_S_d0_1 : S1000x64.ReducesTo [0, 1] S_
  h_S_ : 0 < S_.numel

variable [Facts]

def fn {F : FTy → Type} [FloatOps F] (main_arg0 : IVec S16384x1000 32) (main_arg1 : FVec F S1000x64 .f32) : IVec S_ 1 :=
  let main_v0 : FVec F S1000x64 .f32 := Host.absf main_arg1
  let main_cst : FVec F S_ .f32 := constant S_ .f32 0x7F800000#32
  let main_v1 : FVec F S1000x64 .f32 := broadcastInDim S1000x64 ![] bcast_S_S1000x64 main_cst
  let main_v2 : IVec S1000x64 1 := cmpf .olt main_v0 main_v1
  let main_c : IVec S_ 1 := constantI S_ 1 1#1
  let main_v3 : IVec S_ 1 := (fun x v => Host.reduce IntOp.andi x v reducesTo_S1000x64_S_d0_1 h_S_) main_v2 main_c
  main_v3
-- ==== Kernel.lean ====
abbrev S16384x1000 : Shape := ⟨2, ![16384, 1000]⟩
abbrev S1000x64 : Shape := ⟨2, ![1000, 64]⟩
abbrev S16384x64 : Shape := ⟨2, ![16384, 64]⟩
abbrev S1024x1000 : Shape := ⟨2, ![1024, 1000]⟩
abbrev S1024x64 : Shape := ⟨2, ![1024, 64]⟩

abbrev nBuf : Space → Nat
  | .hbm => 3
  | .vmem => 5
  | .smem => 0
  | _ => 0

abbrev bufTy : (tb : Table) → Fin (tcTables nBuf tb) → BufTy
  | .hbm, ⟨0, _⟩ => ⟨S16384x1000, .i32⟩
  | .hbm, ⟨1, _⟩ => ⟨S1000x64, .f32⟩
  | .hbm, ⟨2, _⟩ => ⟨S16384x64, .f32⟩
  | .local _ .vmem, ⟨0, _⟩ => ⟨S1024x1000, .i32⟩
  | .local _ .vmem, ⟨1, _⟩ => ⟨S1024x1000, .i32⟩
  | .local _ .vmem, ⟨2, _⟩ => ⟨S1000x64, .f32⟩
  | .local _ .vmem, ⟨3, _⟩ => ⟨S1024x64, .f32⟩
  | .local _ .vmem, ⟨4, _⟩ => ⟨S1024x64, .f32⟩
  | _, _ => ⟨S16384x1000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x1000_S1024x1000_0_0 : ∀ a, (![0, 0] : Fin 2 → Nat) a + S1024x1000.size a ≤ S1024x1000.size a
  h_S1024x1000 : 0 < S1024x1000.numel
  natLt_1_32 : 1 < 32
  inb_S1000x64_S1000x64_0_0 : ∀ a, (![0, 0] : Fin 2 → Nat) a + S1000x64.size a ≤ S1000x64.size a
  h_S1000x64 : 0 < S1000x64.numel
  inb_S1024x64_S1024x64_0_0 : ∀ a, (![0, 0] : Fin 2 → Nat) a + S1024x64.size a ≤ S1024x64.size a
  h_S1024x64 : 0 < S1024x64.numel
  dot_S1024x1000_S1000x64_S1024x64_1_0_0_1_n_n_wf : DotDims.WF S1024x1000 S1000x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S16384x1000.size a
  hwx0_0 : ∀ i : grid0.Coords, EltTy.bits .i32 = 32 ∨ (Rect.block (s := S16384x1000) S1024x1000.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x64.size a ≤ S1000x64.size a
  hwx0_1 : ∀ i : grid0.Coords, EltTy.bits .f32 = 32 ∨ (Rect.block (s := S1000x64) S1000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S16384x64.size a
  hwx0_2 : ∀ i : grid0.Coords, EltTy.bits .f32 = 32 ∨ (Rect.block (s := S16384x64) S1024x64.size (cc0_transform_2 i) (hinb0_2 i)).WholeWords (EltTy.packing .f32)

variable [Facts₀]

def dot_S1024x1000_S1000x64_S1024x64_1_0_0_1_n_n : DotDims S1024x1000 S1000x64 S1024x64 where
  lhsContracting := [1]
  rhsContracting := [0]
  lhsNonContracting := [0]
  rhsNonContracting := [1]
  lhsBatch := []
  rhsBatch := []
  wf := dot_S1024x1000_S1000x64_S1024x64_1_0_0_1_n_n_wf

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1000 : Shape := ⟨2, ![16384, 1000]⟩
abbrev S1000x64 : Shape := ⟨2, ![1000, 64]⟩
abbrev S_ : Shape := ⟨0, ![]⟩
abbrev S16384x64 : Shape := ⟨2, ![16384, 64]⟩

abbrev nBuf : Space → Nat
  | .hbm => 7
  | .vmem => 0
  | .smem => 0
  | _ => 0

abbrev bufTy : (tb : Table) → Fin (tcTables nBuf tb) → BufTy
  | .hbm, ⟨0, _⟩ => ⟨S16384x1000, .i32⟩
  | .hbm, ⟨1, _⟩ => ⟨S1000x64, .f32⟩
  | .hbm, ⟨2, _⟩ => ⟨S_, .i32⟩
  | .hbm, ⟨3, _⟩ => ⟨S16384x1000, .i32⟩
  | .hbm, ⟨4, _⟩ => ⟨S16384x1000, .i1⟩
  | .hbm, ⟨5, _⟩ => ⟨S16384x1000, .f32⟩
  | .hbm, ⟨6, _⟩ => ⟨S16384x64, .f32⟩
  | _, _ => ⟨S16384x1000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S_S16384x1000 : S_.BroadcastsInDim S16384x1000 (![] : Fin 0 → Fin S16384x1000.rank)
  dot_S16384x1000_S1000x64_S16384x64_1_0_0_1_n_n_wf : DotDims.WF S16384x1000 S1000x64 S16384x64 [1] [0] [0] [1] [] []

variable [Facts₀]

def dot_S16384x1000_S1000x64_S16384x64_1_0_0_1_n_n : DotDims S16384x1000 S1000x64 S16384x64 where
  lhsContracting := [1]
  rhsContracting := [0]
  lhsNonContracting := [0]
  rhsNonContracting := [1]
  lhsBatch := []
  rhsBatch := []
  wf := dot_S16384x1000_S1000x64_S16384x64_1_0_0_1_n_n_wf

class Facts : Prop extends Facts₀ where

variable [Facts]
-- ==== Proof.MaskedSum.lean ====
/-
  The mathematics both programs compute: a masked row sum.

  Given a table `idx` of 16384 rows of 1000 machine integers and a table `W` of 1000 rows of 64 extended reals, the entry at row `r` and
  column `e` of the result is the sum over `k` of `ind (idx r k) · W k e`, where `ind x` is 1 when the word `x` is not zero and 0 when it is:
  row `r` of the result adds up the rows of `W` at the positions where row `r` of `idx` is nonzero.

  The mask can be built from the one-bit outcome of the comparison `x ≠ 0` in two ways: read the bit as an unsigned number, or widen it
  with zeros to 32 bits and read that word as a signed number. Widening by zeros leaves the sign bit clear, so the two readings agree
  (`widened_bit_signed`); both are `ind`.
-/
import Idealize.ShloMosaic.Lib.ValueIdx

noncomputable section

open scoped BigOperators

namespace Cert.MaskedSum

open Idealize.ShloMosaic Idealize.ShloMosaic.ValueIdx

/-- The indicator of a nonzero word as an extended real: the one-bit outcome of `x ≠ 0`, read as a number (1 or 0). -/
def ind (x : BitVec 32) : EReal := (((IntOp.cmpi .ne x 0#32).toNat : ℝ) : EReal)

/-- A single bit widened with zeros to 32 bits and read as a SIGNED integer is the bit read as a natural number: the widened
    word is 0 or 1, far below the sign bit. Both bits are checked. -/
theorem widened_bit_signed (b : BitVec 1) : (b.setWidth 32).toInt = (b.toNat : Int) := by
  revert b; decide

/-- Hence the mask "compare with zero, widen to 32 bits, convert as a signed integer" is the indicator. -/
theorem signed_widened_eq_ind (x : BitVec 32) :
    ((((IntOp.cmpi .ne x 0#32).setWidth 32).toInt : ℝ) : EReal) = ind x := by
  unfold ind
  rw [widened_bit_signed, Int.cast_natCast]

/-- One entry of the masked row sum, by its row `r` and column `e`. -/
def entry (idx : (⟨2, ![16384, 1000]⟩ : Shape).Idx → BitVec 32) (W : (⟨2, ![1000, 64]⟩ : Shape).Idx → EReal)
    (r : Fin 16384) (e : Fin 64) : EReal :=
  ∑ k : Fin 1000, ind (idx (ix2 r k)) * W (ix2 k e)

/-- The masked row sum as one array: entry `(r, e)` is `∑ k, ind (idx r k) · W k e`. -/
def G (idx : (⟨2, ![16384, 1000]⟩ : Shape).Idx → BitVec 32) (W : (⟨2, ![1000, 64]⟩ : Shape).Idx → EReal) :
    (⟨2, ![16384, 64]⟩ : Shape).Idx → EReal :=
  fun i => entry idx W (i 0) (i 1)

end Cert.MaskedSum

end
-- ==== Proof.HostSide.lean ====
/-
  The reference program computes the masked row sum.

  Its last operation is a `dot_general` contracting the 1000-long axis: entry `(r, e)` is the sum over `k` of the left operand at `(r, k)`
  times the right operand at `(k, e)`. The left operand is the comparison `idx ≠ 0` (against a broadcast zero word) converted to a float as
  an unsigned number, which at the ideal instance is the indicator `ind` of `MaskedSum`; the right operand is `W` itself.
-/
import proofs.«116819_g78932908965942_cont_9to1_m_659_2_alg».proof.Proof.Gen.ReferenceIdeal.Read
import proofs.«116819_g78932908965942_cont_9to1_m_659_2_alg».proof.Proof.MaskedSum

noncomputable section

open scoped BigOperators

namespace Cert.HostSide

open Idealize.ShloMosaic Idealize.ShloMosaic.ValueIdx Cert.ReferenceIdeal Cert.ReferenceIdeal.Read Cert.MaskedSum

/-- The left operand's index at output `(r, e)` and contraction coordinate `k` is `(r, k)`. -/
theorem left_index (i : S16384x64.Idx) (k : Fin 1000) : lidx_main_v3 i k = ix2 (i 0) k :=
  funext fun a => by match a with | ⟨0, _⟩ => rfl | ⟨1, _⟩ => rfl

/-- The right operand's index there is `(k, e)`. -/
theorem right_index (i : S16384x64.Idx) (k : Fin 1000) : ridx_main_v3 i k = ix2 k (i 1) :=
  funext fun a => by match a with | ⟨0, _⟩ => rfl | ⟨1, _⟩ => rfl

/-- The reference's result, as a function of its two arguments, is the masked row sum `G`. -/
theorem result_eq (x0 : (⟨S16384x1000, .i32⟩ : BufTy).Contents (Elt Ideal)) (x1 : (⟨S1000x64, .f32⟩ : BufTy).Contents (Elt Ideal)) :
    val_main_v3 (F := Ideal) x0 x1 = G x0 x1 := by
  funext i
  rw [val_main_v3_apply]
  show _ = ∑ k : Fin 1000, ind (x0 (ix2 (i 0) k)) * x1 (ix2 k (i 1))
  refine Finset.sum_congr rfl fun k _ => ?_
  rw [val_main_v2_apply, val_main_v1_apply, val_main_v0_apply, val_main_c_apply, left_index, right_index]
  rfl

end Cert.HostSide

end
-- ==== Proof.BlockProduct.lean ====
/-
  What the kernel body computes on one block.

  At a grid point the body loads a block `v0` of 1024 rows of the integer table and the whole table `v5`, builds the mask
  (compare with zero, widen the bit to 32 bits, convert as a signed integer) and multiplies mask by table on the matrix unit into a zero
  accumulator. At the ideal instance a matrix product into zero is the plain sum over the contracted axis, and the mask is the indicator
  `ind` (`MaskedSum.signed_widened_eq_ind`): entry `(p, q)` of the stored block is `∑ k, ind (v0 p k) · v5 k q`.
-/
import proofs.«116819_g78932908965942_cont_9to1_m_659_2_alg».proof.Proof.Gen.KernelIdeal.Skeleton
import proofs.«116819_g78932908965942_cont_9to1_m_659_2_alg».proof.Proof.MaskedSum
import Idealize.ShloMosaic.Lib.ValueIdx
import Idealize.ShloMosaic.PureOps.Ideal.Laws

noncomputable section

open scoped BigOperators

namespace Cert.BlockProduct

open Idealize.ShloMosaic Idealize.ShloMosaic.ValueIdx Cert.KernelIdeal Cert.KernelIdeal.Gen Cert.MaskedSum

/-- The left operand's row coordinate is the output's row. -/
theorem lhs_row (i : S1024x64.Idx) (q : dot_S1024x1000_S1000x64_S1024x64_1_0_0_1_n_n.contr.Idx) :
    (dot_S1024x1000_S1000x64_S1024x64_1_0_0_1_n_n.lhsIdx i q 0).val = (i 0).val := by
  unfold DotDims.lhsIdx
  rw [dif_neg (show ¬(0 : Fin S1024x1000.rank) ∈ dot_S1024x1000_S1000x64_S1024x64_1_0_0_1_n_n.lhsBatch by decide), dif_pos (show (0 : Fin S1024x1000.rank) ∈ dot_S1024x1000_S1000x64_S1024x64_1_0_0_1_n_n.lhsNonContracting by decide)]
  rfl
/-- The left operand's column coordinate is the contraction coordinate. -/
theorem lhs_col (i : S1024x64.Idx) (q : dot_S1024x1000_S1000x64_S1024x64_1_0_0_1_n_n.contr.Idx) :
    (dot_S1024x1000_S1000x64_S1024x64_1_0_0_1_n_n.lhsIdx i q 1).val = (q ⟨0, by decide⟩).val :=
  dot_S1024x1000_S1000x64_S1024x64_1_0_0_1_n_n.lhsIdx_val_of_single rfl i q
/-- The right operand's row coordinate is the contraction coordinate. -/
theorem rhs_row (i : S1024x64.Idx) (q : dot_S1024x1000_S1000x64_S1024x64_1_0_0_1_n_n.contr.Idx) :
    (dot_S1024x1000_S1000x64_S1024x64_1_0_0_1_n_n.rhsIdx i q 0).val = (q ⟨0, by decide⟩).val :=
  dot_S1024x1000_S1000x64_S1024x64_1_0_0_1_n_n.rhsIdx_val_of_single rfl i q
/-- The right operand's column coordinate is the output's column. -/
theorem rhs_col (i : S1024x64.Idx) (q : dot_S1024x1000_S1000x64_S1024x64_1_0_0_1_n_n.contr.Idx) :
    (dot_S1024x1000_S1000x64_S1024x64_1_0_0_1_n_n.rhsIdx i q 1).val = (i 1).val := by
  unfold DotDims.rhsIdx
  rw [dif_neg (show ¬(1 : Fin S1000x64.rank) ∈ dot_S1024x1000_S1000x64_S1024x64_1_0_0_1_n_n.rhsBatch by decide), dif_pos (show (1 : Fin S1000x64.rank) ∈ dot_S1024x1000_S1000x64_S1024x64_1_0_0_1_n_n.rhsNonContracting by decide)]
  rfl

/-- A matrix product of a 1024 by 1000 block with a 1000 by 64 table into a zero accumulator, at the ideal instance and at entry `(p, q)`:
    the sum over `k` of left `(p, k)` times right `(k, q)`. -/
theorem product_apply (l : FVec Ideal S1024x1000 .f32) (r : FVec Ideal S1000x64 .f32) (p : Fin 1024) (q : Fin 64) :
    FloatOps.matmul dot_S1024x1000_S1000x64_S1024x64_1_0_0_1_n_n none l r (constant S1024x64 .f32 0x00000000#32) (ix2 p q)
      = ∑ k : Fin 1000, l (ix2 p k) * r (ix2 k q) := by
  rw [Ideal.matmul_constant_zero_apply, ← Equiv.sum_comp (contrEquiv1 dot_S1024x1000_S1000x64_S1024x64_1_0_0_1_n_n 1000 rfl rfl).symm]
  refine Finset.sum_congr rfl fun k _ => ?_
  have hk := contrEquiv1_symm_val dot_S1024x1000_S1000x64_S1024x64_1_0_0_1_n_n 1000 rfl rfl k
  have el : dot_S1024x1000_S1000x64_S1024x64_1_0_0_1_n_n.lhsIdx (ix2 p q) ((contrEquiv1 dot_S1024x1000_S1000x64_S1024x64_1_0_0_1_n_n 1000 rfl rfl).symm k) = ix2 p k := funext fun a => Fin.ext (by
    match a with
    | ⟨0, _⟩ => exact lhs_row _ _
    | ⟨1, _⟩ => exact (lhs_col _ _).trans hk)
  have er : dot_S1024x1000_S1000x64_S1024x64_1_0_0_1_n_n.rhsIdx (ix2 p q) ((contrEquiv1 dot_S1024x1000_S1000x64_S1024x64_1_0_0_1_n_n 1000 rfl rfl).symm k) = ix2 k q := funext fun a => Fin.ext (by
    match a with
    | ⟨0, _⟩ => exact (rhs_row _ _).trans hk
    | ⟨1, _⟩ => exact rhs_col _ _)
  rw [el, er]

/-- The body's stored block at entry `(p, q)`: the masked sum of the table's rows over the block's row `p`. -/
theorem stored_apply (v0 : Vec Ideal S1024x1000 .i32) (v5 : Vec Ideal S1000x64 .f32) (p : Fin 1024) (q : Fin 64) :
    k0_pay1 (F := Ideal) v0 v5 (ix2 p q) = ∑ k : Fin 1000, ind (v0 (ix2 p k)) * v5 (ix2 k q) := by
  unfold k0_pay1
  refine (product_apply _ _ p q).trans ?_
  refine Finset.sum_congr rfl fun k _ => ?_
  exact congrArg (· * v5 (ix2 k q)) (signed_widened_eq_ind (v0 (ix2 p k)))

/-- The same at any index `j` of the stored block, by its two coordinates. -/
theorem stored_at (v0 : Vec Ideal S1024x1000 .i32) (v5 : Vec Ideal S1000x64 .f32) (j : S1024x64.Idx) :
    k0_pay1 (F := Ideal) v0 v5 j = ∑ k : Fin 1000, ind (v0 (ix2 (j 0) k)) * v5 (ix2 k (j 1)) := by
  obtain ⟨p, q, rfl⟩ : ∃ (p : Fin 1024) (q : Fin 64), j = ix2 p q := ⟨j 0, j 1, eq_ix2 j⟩
  exact stored_apply v0 v5 p q

end Cert.BlockProduct

end
-- ==== Proof.ArrayFromBlocks.lean ====
/-
  From the blocks the kernel writes back to the whole result array.

  The grid has 16 points. Point `t` stages rows `1024·t … 1024·t + 1023` of the integer table (all 1000 columns) and the whole table `W`, and
  writes back rows `1024·t … 1024·t + 1023` of the result (all 64 columns). The stored block's entry `(p, q)` is the masked sum of `W`'s rows
  over the block's row `p` (`BlockProduct.stored_at`), and the block's row `p` is row `1024·t + p` of the table, so what point `t` writes back
  is block `t` of the masked row sum `G` of the two argument arrays. The 16 blocks cover all 16384 rows (row `r` lies in block `r / 1024`), so
  the result array ends holding `G`.
-/
import proofs.«116819_g78932908965942_cont_9to1_m_659_2_alg».proof.Proof.Gen.KernelIdeal.Value
import proofs.«116819_g78932908965942_cont_9to1_m_659_2_alg».proof.Proof.BlockProduct
import Idealize.ShloMosaic.Lib.Pipeline.Value

noncomputable section

open scoped BigOperators

namespace Cert.ArrayFromBlocks

open Cert.KernelIdeal Cert.KernelIdeal.Gen Cert.KernelIdeal.Value Idealize.ShloMosaic Idealize.ShloMosaic.TcCoe Idealize.SL.Sem
open Idealize.ShloMosaic.ValueIdx Cert.MaskedSum
open Idealize.ShloMosaic.Pipeline (Dat)

variable (m : (ℓ : Loc nD τ sig) → Buf (Elt Ideal) ℓ) (ρ : Dev nD → PrngReg)

/-- The body's accesses start at the origin of their buffers. -/
theorem origin : (![0, 0] : Fin 2 → Nat) = fun _ => 0 := funext fun a => by fin_cases a <;> rfl

/-- The three index maps over the 16 grid points: the integer table's block moves down its rows with the result's block and stays in column
    block 0; the table `W` is always its one block; the result's block index is a row block below 16, in column block 0. -/
theorem index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 15 :=
  (by decide +kernel : ∀ t : Fin grid0.N, _)

/-- Every one of the 16 row blocks is some point's. -/
theorem every_row_block : ∀ b : Fin 16, ∃ t : Fin cfg0.N, win0_2.index t = ![b.val, 0] :=
  (by decide +kernel : ∀ b : Fin 16, ∃ t : Fin grid0.N, win0_2.index t = ![b.val, 0])

/-- WHAT POINT `t` WRITES BACK is block `t` of the masked row sum of the two argument arrays. -/
theorem written_back (c : Dev nD) (t : Fin cfg0.N) :
    (dats m 0 c).flushed 2 t = ((cfg0.win 2).blk t).view.read (Elt Ideal) (G (V m c main_arg0) (V m c main_arg1)) := by
  rw [flushed2]
  unfold out0_2
  rw [View.canon_unit_zero origin]
  simp only [View.ld_unit_zero (S := S1024x1000) origin, View.ld_unit_zero (S := S1000x64) origin]
  obtain ⟨e0, e1, e2, e3, e4, e5⟩ := index_maps t
  funext j
  show k0_pay1 (F := Ideal) (iblk m c 0 t) (iblk m c 1 t) j
    = ∑ k : Fin 1000, ind (V m c main_arg0 (ix2 ((((cfg0.win 2).blk t).view.emb j) 0) k)) * V m c main_arg1 (ix2 k ((((cfg0.win 2).blk t).view.emb j) 1))
  refine (Cert.BlockProduct.stored_at (iblk m c 0 t) (iblk m c 1 t) j).trans ?_
  refine Finset.sum_congr rfl fun k _ => ?_
  have h0 : (iblk m c 0 t : Vec Ideal S1024x1000 .i32) (ix2 (j 0) k) = V m c main_arg0 (ix2 ((((cfg0.win 2).blk t).view.emb j) 0) k) := by
    show V m c main_arg0 (((cfg0.win 0).blk t).view.emb (ix2 (j 0) k)) = _
    refine congrArg (V m c main_arg0) (funext fun a => Fin.ext ?_)
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 1000 + 1 * k.val = k.val; omega
  have h1 : (iblk m c 1 t : Vec Ideal S1000x64 .f32) (ix2 k (j 1)) = V m c main_arg1 (ix2 k ((((cfg0.win 2).blk t).view.emb j) 1)) := by
    show V m c main_arg1 (((cfg0.win 1).blk t).view.emb (ix2 k (j 1))) = _
    refine congrArg (V m c main_arg1) (funext fun a => Fin.ext ?_)
    match a with
    | ⟨0, _⟩ => show win0_1.index t (0 : Fin 2) * 1000 + 1 * k.val = k.val; omega
    | ⟨1, _⟩ => show win0_1.index t (1 : Fin 2) * 64 + 1 * (j 1).val = win0_2.index t (1 : Fin 2) * 64 + 1 * (j 1).val; omega
  rw [h0, h1]

/-- An index of the result array is in point `t`'s block iff each coordinate is in the block's range on its axis. -/
theorem in_block (t : Fin cfg0.N) (i : S16384x64.Idx) :
    i ∈ ((cfg0.win 2).blk t).view.set ↔ ∀ a : Fin 2, win0_2.index t a * S1024x64.size a ≤ (i a).val ∧ (i a).val < win0_2.index t a * S1024x64.size a + S1024x64.size a := by
  show i ∈ ((View.whole main_v0).slice (win0_2.rect t)).set ↔ _
  rw [View.set_slice_whole, Rect.mem_set_unit]
  exact Iff.rfl

/-- Every index of the result array is in some point's block: row `r` is in row block `r / 1024`. -/
theorem covered (i : S16384x64.Idx) : ∃ t : Fin cfg0.N, (cfg0.win 2).flush t = true ∧ i ∈ ((cfg0.win 2).blk t).view.set := by
  have hi0 : (i 0).val < 16384 := (i 0).isLt
  have hi1 : (i 1).val < 64 := (i 1).isLt
  obtain ⟨t, ht⟩ := every_row_block ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [in_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 64 ≤ (i 1).val ∧ (i 1).val < win0_2.index t (1 : Fin 2) * 64 + 64; omega

/-- THE RESULT ARRAY after the run is the masked row sum of the two argument arrays. -/
theorem result_array (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => written_back m c t) covered

/-- The kernel's run, read: the result array at the masked row sum of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array m c), (h c).2⟩) (run_blocks m ρ)

end Cert.ArrayFromBlocks

end
-- ==== Proof.lean ====
/-
  A masked row sum on the matrix unit against the same sum as a host `dot_general`.

  Both programs take a table `idx` of 16384 rows of 1000 machine integers and a table `W` of 1000 rows of 64 floats, and return the 16384 by 64
  array whose entry `(r, e)` is the sum over `k` of `[idx r k ≠ 0] · W k e`: row `r` adds up the rows of `W` at the positions where row `r` of
  `idx` is nonzero (`MaskedSum.G`).

  The kernel walks 16 row blocks of 1024 rows; on each it builds the 0/1 mask (compare with zero, widen the bit to 32 bits, convert as a
  signed integer) and multiplies it with the whole of `W` into a zero accumulator (`BlockProduct`), and the 16 written-back blocks tile the
  result (`ArrayFromBlocks`). The reference builds the mask for the whole table at once (the same comparison, the bit converted as an
  unsigned number) and contracts it with `W` in one `dot_general` (`HostSide`). Over the extended reals a matrix product into zero and a
  `dot_general` are the same sum over the contracted axis, and the two ways of reading the comparison's bit agree, so the two results are
  the same term of the arguments, entry by entry, whatever `W` holds: no law that would need finite entries is used, and the precondition is
  never opened. The idealized kernel is the kernel's own text read over the extended reals (no operation of it was rewritten), so that
  conjunct is `True`.
-/
import proofs.«116819_g78932908965942_cont_9to1_m_659_2_alg».proof.Defs
import proofs.«116819_g78932908965942_cont_9to1_m_659_2_alg».proof.Proof.Gen.Kernel
import proofs.«116819_g78932908965942_cont_9to1_m_659_2_alg».proof.Proof.Gen.Kernel.Frame
import proofs.«116819_g78932908965942_cont_9to1_m_659_2_alg».proof.Proof.Gen.KernelIdeal
import proofs.«116819_g78932908965942_cont_9to1_m_659_2_alg».proof.Proof.Gen.KernelIdeal.Frame
import proofs.«116819_g78932908965942_cont_9to1_m_659_2_alg».proof.Proof.Gen.KernelIdeal.Value
import proofs.«116819_g78932908965942_cont_9to1_m_659_2_alg».proof.Proof.Gen.ReferenceIdeal
import proofs.«116819_g78932908965942_cont_9to1_m_659_2_alg».proof.Proof.Gen.ReferenceIdeal.Run
import proofs.«116819_g78932908965942_cont_9to1_m_659_2_alg».proof.Proof.Gen.ReferenceIdeal.Read
import proofs.«116819_g78932908965942_cont_9to1_m_659_2_alg».proof.Proof.Gen.Pre_finite_inputs
import proofs.«116819_g78932908965942_cont_9to1_m_659_2_alg».proof.Proof.MaskedSum
import proofs.«116819_g78932908965942_cont_9to1_m_659_2_alg».proof.Proof.HostSide
import proofs.«116819_g78932908965942_cont_9to1_m_659_2_alg».proof.Proof.ArrayFromBlocks
import Idealize.ShloMosaic.Adequacy
import Idealize.ShloMosaic.Init

noncomputable section

namespace Cert.Proof

open Idealize.ShloMosaic Idealize.ShloMosaic.TcCoe Idealize.SL.Sem

/-- The kernel as printed runs to the end without a fault and leaves both argument arrays as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `idx` and `W`, the kernel's result array ends at the masked row sum of its arguments (`ArrayFromBlocks.run`) and the
    reference's at its `dot_general` of the mask with `W`, which is the same masked row sum (`HostSide.result_eq`) of the same arguments. -/
theorem algebraic : Cert.algebraic_KernelIdeal_ReferenceIdeal := by
  intro m ρ m' ρ' _ hagree
  refine ⟨fun c => Cert.MaskedSum.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.ArrayFromBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.HostSide.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
